-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x32 .f32) (main_arg1 : IVec S2x1600000 32) (main_arg2 : FVec F S64x32 .f32) (main_arg3 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S10000x1 : Shape := ⟨2, ![10000, 1]⟩
abbrev S10000x32 : Shape := ⟨2, ![10000, 32]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S32x64 : Shape := ⟨2, ![32, 64]⟩

abbrev nBuf : Space → Nat
  | .hbm => 91
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x32, .f32⟩
  | .hbm, ⟨53, _⟩ => ⟨S1700000x1, .f32⟩
  | .hbm, ⟨54, _⟩ => ⟨S1700000x32, .f32⟩
  | .hbm, ⟨55, _⟩ => ⟨S_, .f32⟩
  | .hbm, ⟨56, _⟩ => ⟨S100000x32, .f32⟩
  | .hbm, ⟨57, _⟩ => ⟨S1700000x1, .i32⟩
  | .hbm, ⟨58, _⟩ => ⟨S100000x32, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x32, .f32⟩
  | .hbm, ⟨68, _⟩ => ⟨S1700000x1, .f32⟩
  | .hbm, ⟨69, _⟩ => ⟨S1700000x32, .f32⟩
  | .hbm, ⟨70, _⟩ => ⟨S_, .f32⟩
  | .hbm, ⟨71, _⟩ => ⟨S100000x32, .f32⟩
  | .hbm, ⟨72, _⟩ => ⟨S1700000x1, .i32⟩
  | .hbm, ⟨73, _⟩ => ⟨S100000x32, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x32, .f32⟩
  | .hbm, ⟨83, _⟩ => ⟨S1700000x1, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x64, .f32⟩
  | .hbm, ⟨90, _⟩ => ⟨S100000x64, .f32⟩
  | .local _ .vmem, ⟨0, _⟩ => ⟨S10000x1, .f32⟩
  | .local _ .vmem, ⟨1, _⟩ => ⟨S10000x1, .f32⟩
  | .local _ .vmem, ⟨2, _⟩ => ⟨S10000x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x1, .f32⟩
  | .local _ .vmem, ⟨7, _⟩ => ⟨S10000x1, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x1, .f32⟩
  | .local _ .vmem, ⟨13, _⟩ => ⟨S10000x1, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S5000x32, .f32⟩
  | .local _ .vmem, ⟨19, _⟩ => ⟨S5000x32, .f32⟩
  | .local _ .vmem, ⟨20, _⟩ => ⟨S64x32, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![170], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![170], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S10000x1_S10000x32 : S10000x1.Broadcasts S10000x32
  bcast_S_S100000x32 : S_.BroadcastsInDim S100000x32 (![] : Fin 0 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S1700000x1.size a
  hwx0_0 : ∀ i : grid0.Coords, EltTy.bits .f32 = 32 ∨ (Rect.block (s := S1700000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S1700000x32.size a
  hwx0_1 : ∀ i : grid0.Coords, EltTy.bits .f32 = 32 ∨ (Rect.block (s := S1700000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S1700000x32.size a
  hwx0_2 : ∀ i : grid0.Coords, EltTy.bits .f32 = 32 ∨ (Rect.block (s := S1700000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S1700000x1.size a
  hwx1_0 : ∀ i : grid1.Coords, EltTy.bits .f32 = 32 ∨ (Rect.block (s := S1700000x1) S10000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S1700000x32.size a
  hwx1_1 : ∀ i : grid1.Coords, EltTy.bits .f32 = 32 ∨ (Rect.block (s := S1700000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S1700000x32.size a
  hwx1_2 : ∀ i : grid1.Coords, EltTy.bits .f32 = 32 ∨ (Rect.block (s := S1700000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S1700000x1.size a
  hwx2_0 : ∀ i : grid2.Coords, EltTy.bits .f32 = 32 ∨ (Rect.block (s := S1700000x1) S10000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S1700000x32.size a
  hwx2_1 : ∀ i : grid2.Coords, EltTy.bits .f32 = 32 ∨ (Rect.block (s := S1700000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S1700000x32.size a
  hwx2_2 : ∀ i : grid2.Coords, EltTy.bits .f32 = 32 ∨ (Rect.block (s := S1700000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_v37) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S32x64 : Shape := ⟨2, ![32, 64]⟩
abbrev S100000x64 : Shape := ⟨2, ![100000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x32, .f32⟩
  | .hbm, ⟨54, _⟩ => ⟨S1700000x32, .f32⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x32, .f32⟩
  | .hbm, ⟨70, _⟩ => ⟨S1700000x32, .f32⟩
  | .hbm, ⟨71, _⟩ => ⟨S1700000x32, .f32⟩
  | .hbm, ⟨72, _⟩ => ⟨S_, .f32⟩
  | .hbm, ⟨73, _⟩ => ⟨S100000x32, .f32⟩
  | .hbm, ⟨74, _⟩ => ⟨S1700000x1, .i32⟩
  | .hbm, ⟨75, _⟩ => ⟨S100000x32, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x32, .f32⟩
  | .hbm, ⟨86, _⟩ => ⟨S1700000x32, .f32⟩
  | .hbm, ⟨87, _⟩ => ⟨S1700000x32, .f32⟩
  | .hbm, ⟨88, _⟩ => ⟨S_, .f32⟩
  | .hbm, ⟨89, _⟩ => ⟨S100000x32, .f32⟩
  | .hbm, ⟨90, _⟩ => ⟨S1700000x1, .i32⟩
  | .hbm, ⟨91, _⟩ => ⟨S100000x32, .f32⟩
  | .hbm, ⟨92, _⟩ => ⟨S32x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf

class Facts : Prop extends Facts₀ where

variable [Facts]
-- ==== Proof.Spec.lean ====
/-
  The mathematics both programs compute, as named functions of the four argument arrays.

  From the edge list `ei` (two rows of 1,600,000 node numbers) the programs form the source and target vectors of
  1,700,000 entries (the edges followed by one self loop per node), the in-degree of every node (a scatter-add of
  ones at the targets), its inverse square root where the degree is positive and zero elsewhere, and the edge weight
  `nrm e = dinv (src e) · dinv (dst e)` (both reads through the wrapped index `i < 0 ? i + 100000 : i`).

  One propagation step sends a node feature matrix `h` (100000 × 32) to the scatter-add at the targets of the rows
  `nrm e · h (src e)`. The reference forms the weighted rows by broadcasting `nrm` along the feature axis and
  multiplying on the host (`hopR`); the kernel hands the column `nrm` reshaped to 1700000 × 1 and the gathered rows to
  a row-blocked product (`wmul`, `hopK`). After three steps the result is `h · Wᵀ + b`: on the host a contraction over
  the 32 features against the transposed weights plus the bias broadcast along the rows (`refG`), in the kernel the sum
  over the features written out with the bias as a 1 × 64 row (`lin`, `kerG`).
-/
import proofs.«160632_j1623497638172_1_alg».proof.KernelIdeal
import proofs.«160632_j1623497638172_1_alg».proof.ReferenceIdeal
import Idealize.ShloMosaic.PureOps.Ideal
import Idealize.ShloMosaic.Lib.ValueIdx

noncomputable section

namespace Cert.Spec

open Idealize.ShloMosaic Idealize.ShloMosaic.ValueIdx Cert.ReferenceIdeal Cert.ReferenceIdeal.Facts₀

variable {F : FTy → Type} [FloatOps F] [Cert.ReferenceIdeal.Facts₀] [Cert.KernelIdeal.Facts₀]

/-- The source node of every edge: row 0 of the edge list, then the nodes themselves (the self loops). -/
def srcV (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The target node of every edge: row 1 of the edge list, then the nodes themselves. -/
def dstV (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node vector as a column of gather / scatter indices, a negative entry wrapped by the node count. -/
def wrapIdx (v : (⟨S1700000, .i32⟩ : BufTy).Contents (Elt F)) : (⟨S1700000x1, .i32⟩ : BufTy).Contents (Elt F) :=
  broadcastInDim S1700000x1 ![0] bcast_S1700000_S1700000x1_0 (select (cmpi .slt (v) (broadcastInDim S1700000 ![] bcast_S_S1700000 (constantI S_ 32 0#32))) (addi (v) (broadcastInDim S1700000 ![] bcast_S_S1700000 (constantI S_ 32 100000#32))) (v))

/-- The column of source indices every gather of node rows reads through. -/
def srcIdx (ei : (⟨S2x1600000, .i32⟩ : BufTy).Contents (Elt F)) : (⟨S1700000x1, .i32⟩ : BufTy).Contents (Elt F) :=
  wrapIdx (srcV ei)

/-- The column of target indices every scatter-add writes through (not wrapped: the scatter drops what is out of range). -/
def dstIdx (ei : (⟨S2x1600000, .i32⟩ : BufTy).Contents (Elt F)) : (⟨S1700000x1, .i32⟩ : BufTy).Contents (Elt F) :=
  broadcastInDim S1700000x1 ![0] bcast_S1700000_S1700000x1_0 (dstV ei)

/-- The in-degree of every node, self loop included: ones added up at the targets. -/
def degV (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (dstIdx ei) (broadcastInDim S1700000 ![] bcast_S_S1700000 (constant S_ .f32 0x3F800000#32))

/-- `deg ^ (-1/2)` where the degree is positive, zero elsewhere. -/
def dinvV (ei : (⟨S2x1600000, .i32⟩ : BufTy).Contents (Elt F)) : (⟨S100000, .f32⟩ : BufTy).Contents (Elt F) :=
  select (cmpf .ogt (degV ei) (broadcastInDim S100000 ![] bcast_S_S100000 (constant S_ .f32 0x00000000#32))) (Host.rsqrt (degV ei)) (broadcastInDim S100000 ![] bcast_S_S100000 (id (constant S_ .f32 0x00000000#32)))

/-- The weight of every edge: `dinv (src e) · dinv (dst e)`. -/
def nrmV (ei : (⟨S2x1600000, .i32⟩ : BufTy).Contents (Elt F)) : (⟨S1700000, .f32⟩ : BufTy).Contents (Elt F) :=
  mulf (Host.gather gather_S100000_S1700000x1_S1700000_n_0_n_n_0_1_1 (dinvV ei) (wrapIdx (srcV ei))) (Host.gather gather_S100000_S1700000x1_S1700000_n_0_n_n_0_1_1 (dinvV ei) (wrapIdx (dstV ei)))

/-- The rows a propagation step reads: `h (src e)` for every edge `e`. -/
def gatherRows (ei : (⟨S2x1600000, .i32⟩ : BufTy).Contents (Elt F)) (h : (⟨S100000x32, .f32⟩ : BufTy).Contents (Elt F)) : (⟨S1700000x32, .f32⟩ : BufTy).Contents (Elt F) :=
  Host.gather gather_S100000x32_S1700000x1_S1700000x32_1_0_n_n_0_1_132 h (srcIdx ei)

/-- Weighted rows added up at their targets, from zero. -/
def scatterRows (ei : (⟨S2x1600000, .i32⟩ : BufTy).Contents (Elt F)) (u : (⟨S1700000x32, .f32⟩ : BufTy).Contents (Elt F)) : (⟨S100000x32, .f32⟩ : BufTy).Contents (Elt F) :=
  Host.scatterAdd scatter_S100000x32_S1700000x1_S1700000x32_1_0_0_1 (broadcastInDim S100000x32 ![] bcast_S_S100000x32 (constant S_ .f32 0x00000000#32)) (dstIdx ei) u

/-- One propagation step as the reference spells it: the weights broadcast along the features, times the gathered rows. -/
def hopR (ei : (⟨S2x1600000, .i32⟩ : BufTy).Contents (Elt F)) (h : (⟨S100000x32, .f32⟩ : BufTy).Contents (Elt F)) : (⟨S100000x32, .f32⟩ : BufTy).Contents (Elt F) :=
  scatterRows ei (mulf (broadcastInDim S1700000x32 ![0, 1] bcast_S1700000x1_S1700000x32_0_1 (broadcastInDim S1700000x1 ![0] bcast_S1700000_S1700000x1_0 (nrmV ei))) (gatherRows ei h))

/-- The reference's result: three steps, then `h · Wᵀ + b` as a host contraction and a broadcast bias. -/
def refG (x : (⟨S100000x32, .f32⟩ : BufTy).Contents (Elt F)) (ei : (⟨S2x1600000, .i32⟩ : BufTy).Contents (Elt F))
    (W : (⟨S64x32, .f32⟩ : BufTy).Contents (Elt F)) (b : (⟨S64, .f32⟩ : BufTy).Contents (Elt F)) : (⟨S100000x64, .f32⟩ : BufTy).Contents (Elt F) :=
  addf (Host.dotGeneral dot_S100000x32_S32x64_S100000x64_1_0_0_1_n_n none (hopR ei (hopR ei (hopR ei x))) (transpose S32x64 [1, 0] W transposes_S64x32_S32x64_1_0)) (broadcastInDim S100000x64 ![0, 1] bcast_S1x64_S100000x64_0_1 (broadcastInDim S1x64 ![1] bcast_S64_S1x64_1 b))

/-- The row-blocked product of the kernel's first three regions, as one function of whole arrays: row `e` of `hs`
    times entry `e` of the weight column. -/
def wmul (n2 : Vec F S1700000x1 .f32) (hs : Vec F S1700000x32 .f32) : Vec F S1700000x32 .f32 :=
  fun i => FloatOps.mulf (n2 (ix2 (i 0 : Fin 1700000) (0 : Fin 1))) (hs i)

/-- The weight column the kernel's regions read: the edge weights reshaped to 1700000 × 1. -/
def nrmCol (ei : (⟨S2x1600000, .i32⟩ : BufTy).Contents (Elt F)) : (⟨S1700000x1, .f32⟩ : BufTy).Contents (Elt F) :=
  shapeCast _ (nrmV ei) Cert.KernelIdeal.Facts₀.shapeCasts_S1700000_S1700000x1

/-- One propagation step as the kernel computes it. -/
def hopK (ei : (⟨S2x1600000, .i32⟩ : BufTy).Contents (Elt F)) (h : (⟨S100000x32, .f32⟩ : BufTy).Contents (Elt F)) : (⟨S100000x32, .f32⟩ : BufTy).Contents (Elt F) :=
  scatterRows ei (wmul (nrmCol ei) (gatherRows ei h))

/-- The kernel's last region as one function of whole arrays, on the extended reals: `∑ k, h i k · W j k + b 0 j`. -/
def lin (h : FVec Ideal S100000x32 .f32) (W : FVec Ideal S64x32 .f32) (b2 : FVec Ideal S1x64 .f32) : FVec Ideal S100000x64 .f32 :=
  fun i => (∑ k : Fin 32, h (ix2 (i 0 : Fin 100000) k) * W (ix2 (i 1 : Fin 64) k)) + b2 (ix2 (0 : Fin 1) (i 1 : Fin 64))

/-- The bias as the kernel's last region reads it: reshaped to a 1 × 64 row. -/
def biasRow (b : (⟨S64, .f32⟩ : BufTy).Contents (Elt F)) : (⟨S1x64, .f32⟩ : BufTy).Contents (Elt F) :=
  shapeCast _ b Cert.KernelIdeal.Facts₀.shapeCasts_S64_S1x64

/-- The kernel's result on the extended reals. -/
def kerG (x : FVec Ideal S100000x32 .f32) (ei : (⟨S2x1600000, .i32⟩ : BufTy).Contents (Elt Ideal))
    (W : FVec Ideal S64x32 .f32) (b : FVec Ideal S64 .f32) : FVec Ideal S100000x64 .f32 :=
  lin (hopK (F := Ideal) ei (hopK (F := Ideal) ei (hopK (F := Ideal) ei x))) W (biasRow (F := Ideal) b)

end Cert.Spec

end
-- ==== Proof.Region0.lean ====
import proofs.«160632_j1623497638172_1_alg».proof.Proof.Gen.KernelIdeal.Frame
import proofs.«160632_j1623497638172_1_alg».proof.Proof.Gen.ReferenceIdeal
import proofs.«160632_j1623497638172_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

/-! The kernel multiplies row block `t` of the weight column (10000 × 1) into row block `t` of the rows
    (10000 × 32) at each of the 170 grid points. The blocks tile the 1700000 rows, so the output array ends as the
    row-weighted product of the two whole arrays: entry `(e, k)` is weight `e` times entry `(e, k)` of the rows. -/

/-- The offset of a whole-block access is zero on both axes. -/
theorem wmul0_origin : (![0, 0] : Fin 2 → Nat) = fun _ => 0 := funext fun a => by fin_cases a <;> rfl

/-- The index maps over the grid: at point `t` each of the three windows sits at row block `t`, column block `0`. -/
theorem wmul0_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The body's arithmetic at an entry of the block: the two reshapes are identities, the column is broadcast along
    the 32 features, so entry `j` is the weight of `j`'s row times entry `j` of the rows. -/
theorem wmul0_payload (x0 : Vec F S10000x1 .f32) (x1 : Vec F S10000x32 .f32) (j : S10000x32.Idx) :
    k0_pay1 x0 x1 j = FloatOps.mulf (x0 (ix2 (j 0 : Fin 10000) (0 : Fin 1))) (x1 j) := by
  unfold k0_pay1
  rw [shapeCast_self, shapeCast_self]
  show FloatOps.mulf (broadcastTo S10000x32 x0 broadcasts_S10000x1_S10000x32 j) (x1 j) = _
  rw [broadcastTo_apply x0 broadcasts_S10000x1_S10000x32 j (ix2 (j 0 : Fin 10000) (0 : Fin 1))]
  intro a
  match a with
  | ⟨0, _⟩ => rfl
  | ⟨1, _⟩ => rfl

/-- What point `t` writes back is row block `t` of the row-weighted product of the two arrays the region finds:
    local row `j₀` of each window's block at `t` is row `t · 10000 + j₀` of its array, the same row in all three. -/
theorem wmul0_written (c : Dev nD) (t : Fin cfg0.N) :
    (dat0 V c).flushed 2 t = ((cfg0.win 2).blk t).view.read (Elt F) (Cert.Spec.wmul (V c main_v37) (V c main_v36)) := by
  show (cfg0.win 2).cut (grid0.coords t) ((dat0 V c).after 2 t) = _
  rw [after0_2]
  unfold out0_2
  rw [View.canon_unit_zero wmul0_origin]
  simp only [View.ld_unit_zero (S := S10000x1) wmul0_origin, View.ld_unit_zero (S := S10000x32) wmul0_origin]
  obtain ⟨e0, e1, e2, e3, e4, e5⟩ := wmul0_index t
  funext j
  refine (wmul0_payload _ _ j).trans ?_
  show FloatOps.mulf (V c main_v37 (((cfg0.win 0).blk t).view.emb (ix2 (j 0 : Fin 10000) (0 : Fin 1))))
        (V c main_v36 (((cfg0.win 1).blk t).view.emb j))
      = FloatOps.mulf (V c main_v37 (ix2 ((((cfg0.win 2).blk t).view.emb j) 0 : Fin 1700000) (0 : Fin 1)))
        (V c main_v36 (((cfg0.win 2).blk t).view.emb j))
  have hj : (j 0).val < 10000 := (j 0).isLt
  -- the weight read: the column's entry at the row the output entry has
  have hcol : ((cfg0.win 0).blk t).view.emb (ix2 (j 0 : Fin 10000) (0 : Fin 1))
      = ix2 ((((cfg0.win 2).blk t).view.emb j) 0 : Fin 1700000) (0 : Fin 1) := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 1 + 1 * 0 = 0; omega
  -- the row read: the same entry of the same row block
  have hrow : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 32 + 1 * (j 1).val = win0_2.index t (1 : Fin 2) * 32 + 1 * (j 1).val; omega
  exact congrArg₂ FloatOps.mulf (congrArg (V c main_v37) hcol) (congrArg (V c main_v36) hrow)

/-- An entry of the output array lies in point `t`'s block iff each coordinate is in the block's range on its axis. -/
theorem wmul0_mem_block (t : Fin cfg0.N) (i : S1700000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v38).slice (win0_2.rect t)).set ↔ _
  rw [View.set_slice_whole, Rect.mem_set_unit]
  exact Iff.rfl

/-- The row blocks tile the array: entry `(e, k)` lies in the block of the point `e / 10000`, which is below 170
    because `e` is below 1700000. -/
theorem wmul0_cover (i : S1700000x32.Idx) :
    ∃ t : Fin cfg0.N, (cfg0.win 2).flush t = true ∧ i ∈ ((cfg0.win 2).blk t).view.set := by
  have hi0 : (i 0).val < 1700000 := (i 0).isLt
  have hi1 : (i 1).val < 32 := (i 1).isLt
  have hN : (i 0).val / 10000 < cfg0.N := by
    show (i 0).val / 10000 < grid0.N
    rw [N_0]; omega
  obtain ⟨e0, e1, e2, e3, e4, e5⟩ := wmul0_index ⟨(i 0).val / 10000, hN⟩
  refine ⟨⟨(i 0).val / 10000, hN⟩, flush0_2 _, ?_⟩
  rw [wmul0_mem_block]
  have q0 : win0_2.index ⟨(i 0).val / 10000, hN⟩ (0 : Fin 2) = (i 0).val / 10000 := e4
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 32 ≤ (i 1).val ∧ (i 1).val < win0_2.index ⟨(i 0).val / 10000, hN⟩ (1 : Fin 2) * 32 + 32; omega

/-- Region 0's output array after the run is the row-weighted product of its two input arrays, whole. -/
theorem final0 (c : Dev nD) :
    (dat0 V c).arrAt 2 cfg0.N = Cert.Spec.wmul (V c main_v37) (V c main_v36) :=
  (dat0 V c).arrAt_eq_of_cover 2 _ (fun t _ => wmul0_written V c t) wmul0_cover

end Cert.KernelIdeal.RegionValue

end
-- ==== Proof.Region1.lean ====
import proofs.«160632_j1623497638172_1_alg».proof.Proof.Gen.KernelIdeal.Frame
import proofs.«160632_j1623497638172_1_alg».proof.Proof.Gen.ReferenceIdeal
import proofs.«160632_j1623497638172_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

/-! The kernel multiplies row block `t` of the weight column (10000 × 1) into row block `t` of the rows
    (10000 × 32) at each of the 170 grid points. The blocks tile the 1700000 rows, so the output array ends as the
    row-weighted product of the two whole arrays: entry `(e, k)` is weight `e` times entry `(e, k)` of the rows. -/

/-- The offset of a whole-block access is zero on both axes. -/
theorem wmul1_origin : (![0, 0] : Fin 2 → Nat) = fun _ => 0 := funext fun a => by fin_cases a <;> rfl

/-- The index maps over the grid: at point `t` each of the three windows sits at row block `t`, column block `0`. -/
theorem wmul1_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's arithmetic at an entry of the block: the two reshapes are identities, the column is broadcast along
    the 32 features, so entry `j` is the weight of `j`'s row times entry `j` of the rows. -/
theorem wmul1_payload (x0 : Vec F S10000x1 .f32) (x1 : Vec F S10000x32 .f32) (j : S10000x32.Idx) :
    k1_pay1 x0 x1 j = FloatOps.mulf (x0 (ix2 (j 0 : Fin 10000) (0 : Fin 1))) (x1 j) := by
  unfold k1_pay1
  rw [shapeCast_self, shapeCast_self]
  show FloatOps.mulf (broadcastTo S10000x32 x0 broadcasts_S10000x1_S10000x32 j) (x1 j) = _
  rw [broadcastTo_apply x0 broadcasts_S10000x1_S10000x32 j (ix2 (j 0 : Fin 10000) (0 : Fin 1))]
  intro a
  match a with
  | ⟨0, _⟩ => rfl
  | ⟨1, _⟩ => rfl

/-- What point `t` writes back is row block `t` of the row-weighted product of the two arrays the region finds:
    local row `j₀` of each window's block at `t` is row `t · 10000 + j₀` of its array, the same row in all three. -/
theorem wmul1_written (c : Dev nD) (t : Fin cfg1.N) :
    (dat1 V c).flushed 2 t = ((cfg1.win 2).blk t).view.read (Elt F) (Cert.Spec.wmul (V c main_v49) (V c main_v48)) := by
  show (cfg1.win 2).cut (grid1.coords t) ((dat1 V c).after 2 t) = _
  rw [after1_2]
  unfold out1_2
  rw [View.canon_unit_zero wmul1_origin]
  simp only [View.ld_unit_zero (S := S10000x1) wmul1_origin, View.ld_unit_zero (S := S10000x32) wmul1_origin]
  obtain ⟨e0, e1, e2, e3, e4, e5⟩ := wmul1_index t
  funext j
  refine (wmul1_payload _ _ j).trans ?_
  show FloatOps.mulf (V c main_v49 (((cfg1.win 0).blk t).view.emb (ix2 (j 0 : Fin 10000) (0 : Fin 1))))
        (V c main_v48 (((cfg1.win 1).blk t).view.emb j))
      = FloatOps.mulf (V c main_v49 (ix2 ((((cfg1.win 2).blk t).view.emb j) 0 : Fin 1700000) (0 : Fin 1)))
        (V c main_v48 (((cfg1.win 2).blk t).view.emb j))
  have hj : (j 0).val < 10000 := (j 0).isLt
  -- the weight read: the column's entry at the row the output entry has
  have hcol : ((cfg1.win 0).blk t).view.emb (ix2 (j 0 : Fin 10000) (0 : Fin 1))
      = ix2 ((((cfg1.win 2).blk t).view.emb j) 0 : Fin 1700000) (0 : Fin 1) := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 1 + 1 * 0 = 0; omega
  -- the row read: the same entry of the same row block
  have hrow : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 32 + 1 * (j 1).val = win1_2.index t (1 : Fin 2) * 32 + 1 * (j 1).val; omega
  exact congrArg₂ FloatOps.mulf (congrArg (V c main_v49) hcol) (congrArg (V c main_v48) hrow)

/-- An entry of the output array lies in point `t`'s block iff each coordinate is in the block's range on its axis. -/
theorem wmul1_mem_block (t : Fin cfg1.N) (i : S1700000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v50).slice (win1_2.rect t)).set ↔ _
  rw [View.set_slice_whole, Rect.mem_set_unit]
  exact Iff.rfl

/-- The row blocks tile the array: entry `(e, k)` lies in the block of the point `e / 10000`, which is below 170
    because `e` is below 1700000. -/
theorem wmul1_cover (i : S1700000x32.Idx) :
    ∃ t : Fin cfg1.N, (cfg1.win 2).flush t = true ∧ i ∈ ((cfg1.win 2).blk t).view.set := by
  have hi0 : (i 0).val < 1700000 := (i 0).isLt
  have hi1 : (i 1).val < 32 := (i 1).isLt
  have hN : (i 0).val / 10000 < cfg1.N := by
    show (i 0).val / 10000 < grid1.N
    rw [N_1]; omega
  obtain ⟨e0, e1, e2, e3, e4, e5⟩ := wmul1_index ⟨(i 0).val / 10000, hN⟩
  refine ⟨⟨(i 0).val / 10000, hN⟩, flush1_2 _, ?_⟩
  rw [wmul1_mem_block]
  have q0 : win1_2.index ⟨(i 0).val / 10000, hN⟩ (0 : Fin 2) = (i 0).val / 10000 := e4
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 32 ≤ (i 1).val ∧ (i 1).val < win1_2.index ⟨(i 0).val / 10000, hN⟩ (1 : Fin 2) * 32 + 32; omega

/-- Region 1's output array after the run is the row-weighted product of its two input arrays, whole. -/
theorem final1 (c : Dev nD) :
    (dat1 V c).arrAt 2 cfg1.N = Cert.Spec.wmul (V c main_v49) (V c main_v48) :=
  (dat1 V c).arrAt_eq_of_cover 2 _ (fun t _ => wmul1_written V c t) wmul1_cover

end Cert.KernelIdeal.RegionValue

end
-- ==== Proof.Region2.lean ====
import proofs.«160632_j1623497638172_1_alg».proof.Proof.Gen.KernelIdeal.Frame
import proofs.«160632_j1623497638172_1_alg».proof.Proof.Gen.ReferenceIdeal
import proofs.«160632_j1623497638172_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

/-! The kernel multiplies row block `t` of the weight column (10000 × 1) into row block `t` of the rows
    (10000 × 32) at each of the 170 grid points. The blocks tile the 1700000 rows, so the output array ends as the
    row-weighted product of the two whole arrays: entry `(e, k)` is weight `e` times entry `(e, k)` of the rows. -/

/-- The offset of a whole-block access is zero on both axes. -/
theorem wmul2_origin : (![0, 0] : Fin 2 → Nat) = fun _ => 0 := funext fun a => by fin_cases a <;> rfl

/-- The index maps over the grid: at point `t` each of the three windows sits at row block `t`, column block `0`. -/
theorem wmul2_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The body's arithmetic at an entry of the block: the two reshapes are identities, the column is broadcast along
    the 32 features, so entry `j` is the weight of `j`'s row times entry `j` of the rows. -/
theorem wmul2_payload (x0 : Vec F S10000x1 .f32) (x1 : Vec F S10000x32 .f32) (j : S10000x32.Idx) :
    k2_pay1 x0 x1 j = FloatOps.mulf (x0 (ix2 (j 0 : Fin 10000) (0 : Fin 1))) (x1 j) := by
  unfold k2_pay1
  rw [shapeCast_self, shapeCast_self]
  show FloatOps.mulf (broadcastTo S10000x32 x0 broadcasts_S10000x1_S10000x32 j) (x1 j) = _
  rw [broadcastTo_apply x0 broadcasts_S10000x1_S10000x32 j (ix2 (j 0 : Fin 10000) (0 : Fin 1))]
  intro a
  match a with
  | ⟨0, _⟩ => rfl
  | ⟨1, _⟩ => rfl

/-- What point `t` writes back is row block `t` of the row-weighted product of the two arrays the region finds:
    local row `j₀` of each window's block at `t` is row `t · 10000 + j₀` of its array, the same row in all three. -/
theorem wmul2_written (c : Dev nD) (t : Fin cfg2.N) :
    (dat2 V c).flushed 2 t = ((cfg2.win 2).blk t).view.read (Elt F) (Cert.Spec.wmul (V c main_v61) (V c main_v60)) := by
  show (cfg2.win 2).cut (grid2.coords t) ((dat2 V c).after 2 t) = _
  rw [after2_2]
  unfold out2_2
  rw [View.canon_unit_zero wmul2_origin]
  simp only [View.ld_unit_zero (S := S10000x1) wmul2_origin, View.ld_unit_zero (S := S10000x32) wmul2_origin]
  obtain ⟨e0, e1, e2, e3, e4, e5⟩ := wmul2_index t
  funext j
  refine (wmul2_payload _ _ j).trans ?_
  show FloatOps.mulf (V c main_v61 (((cfg2.win 0).blk t).view.emb (ix2 (j 0 : Fin 10000) (0 : Fin 1))))
        (V c main_v60 (((cfg2.win 1).blk t).view.emb j))
      = FloatOps.mulf (V c main_v61 (ix2 ((((cfg2.win 2).blk t).view.emb j) 0 : Fin 1700000) (0 : Fin 1)))
        (V c main_v60 (((cfg2.win 2).blk t).view.emb j))
  have hj : (j 0).val < 10000 := (j 0).isLt
  -- the weight read: the column's entry at the row the output entry has
  have hcol : ((cfg2.win 0).blk t).view.emb (ix2 (j 0 : Fin 10000) (0 : Fin 1))
      = ix2 ((((cfg2.win 2).blk t).view.emb j) 0 : Fin 1700000) (0 : Fin 1) := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 1 + 1 * 0 = 0; omega
  -- the row read: the same entry of the same row block
  have hrow : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 32 + 1 * (j 1).val = win2_2.index t (1 : Fin 2) * 32 + 1 * (j 1).val; omega
  exact congrArg₂ FloatOps.mulf (congrArg (V c main_v61) hcol) (congrArg (V c main_v60) hrow)

/-- An entry of the output array lies in point `t`'s block iff each coordinate is in the block's range on its axis. -/
theorem wmul2_mem_block (t : Fin cfg2.N) (i : S1700000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v62).slice (win2_2.rect t)).set ↔ _
  rw [View.set_slice_whole, Rect.mem_set_unit]
  exact Iff.rfl

/-- The row blocks tile the array: entry `(e, k)` lies in the block of the point `e / 10000`, which is below 170
    because `e` is below 1700000. -/
theorem wmul2_cover (i : S1700000x32.Idx) :
    ∃ t : Fin cfg2.N, (cfg2.win 2).flush t = true ∧ i ∈ ((cfg2.win 2).blk t).view.set := by
  have hi0 : (i 0).val < 1700000 := (i 0).isLt
  have hi1 : (i 1).val < 32 := (i 1).isLt
  have hN : (i 0).val / 10000 < cfg2.N := by
    show (i 0).val / 10000 < grid2.N
    rw [N_2]; omega
  obtain ⟨e0, e1, e2, e3, e4, e5⟩ := wmul2_index ⟨(i 0).val / 10000, hN⟩
  refine ⟨⟨(i 0).val / 10000, hN⟩, flush2_2 _, ?_⟩
  rw [wmul2_mem_block]
  have q0 : win2_2.index ⟨(i 0).val / 10000, hN⟩ (0 : Fin 2) = (i 0).val / 10000 := e4
  intro a
  match a with
  | ⟨0, _⟩ => show win2_2.index ⟨(i 0).val / 10000, hN⟩ (0 : Fin 2) * 10000 ≤ (i 0).val ∧ (i 0).val < win2_2.index ⟨(i 0).val / 10000, hN⟩ (0 : Fin 2) * 10000 + 10000; omega
  | ⟨1, _⟩ => show win2_2.index ⟨(i 0).val / 10000, hN⟩ (1 : Fin 2) * 32 ≤ (i 1).val ∧ (i 1).val < win2_2.index ⟨(i 0).val / 10000, hN⟩ (1 : Fin 2) * 32 + 32; omega

/-- Region 2's output array after the run is the row-weighted product of its two input arrays, whole. -/
theorem final2 (c : Dev nD) :
    (dat2 V c).arrAt 2 cfg2.N = Cert.Spec.wmul (V c main_v61) (V c main_v60) :=
  (dat2 V c).arrAt_eq_of_cover 2 _ (fun t _ => wmul2_written V c t) wmul2_cover

end Cert.KernelIdeal.RegionValue

end
-- ==== Proof.Region3.lean ====
import proofs.«160632_j1623497638172_1_alg».proof.Proof.Gen.KernelIdeal.Frame
import proofs.«160632_j1623497638172_1_alg».proof.Proof.Gen.ReferenceIdeal
import proofs.«160632_j1623497638172_1_alg».proof.Proof.Spec
import Idealize.ShloMosaic.Lib.Pipeline.Value
import Idealize.ShloMosaic.Lib.ValueIdx
import Idealize.ShloMosaic.PureOps.Ideal.Laws
import Idealize.ShloMosaic.Lib.ValueLayout
set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The contraction's operand indices, axis by axis -/

theorem lhs_lin_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs_lin_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhs_lin_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhs_lin_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The product of a 5000 x 32 block against a 32 x 64 matrix into a zero accumulator, at an index: the sum over the 32
    shared coordinates. -/
theorem matmul_lin_apply (l : FVec Ideal S5000x32 .bf16) (r : FVec Ideal S32x64 .bf16) (p : Fin 5000) (q : Fin 64) :
    matmul dot_S5000x32_S32x64_S5000x64_1_0_0_1_n_n none l r (constant (F := Ideal) S5000x64 .f32 0x00000000#32) (ix2 p q)
      = ∑ k : Fin 32, l (ix2 p k) * r (ix2 k q) := by
  show FloatOps.matmul dot_S5000x32_S32x64_S5000x64_1_0_0_1_n_n none l r (constant (F := Ideal) S5000x64 .f32 0x00000000#32) (ix2 p q) = _
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p q) ((ValueIdx.contrEquiv1 dot_S5000x32_S32x64_S5000x64_1_0_0_1_n_n 32 rfl rfl).symm k) = ix2 p k := funext fun a => Fin.ext (by
    match a with
    | ⟨0, _⟩ => exact lhs_lin_0 _ _
    | ⟨1, _⟩ => exact (lhs_lin_1 _ _).trans hk)
  have er : dot_S5000x32_S32x64_S5000x64_1_0_0_1_n_n.rhsIdx (ix2 p q) ((ValueIdx.contrEquiv1 dot_S5000x32_S32x64_S5000x64_1_0_0_1_n_n 32 rfl rfl).symm k) = ix2 k q := funext fun a => Fin.ext (by
    match a with
    | ⟨0, _⟩ => exact (rhs_lin_0 _ _).trans hk
    | ⟨1, _⟩ => exact rhs_lin_1 _ _)
  rw [el, er]

/-- The body's arithmetic at an index of its block: row `p` of the features against row `q` of the weights, summed
    over the 32 features, plus the bias at `q`. -/
theorem pay_lin_apply (x0 : Vec Ideal S5000x32 .f32) (x1 : Vec Ideal S64x32 .f32) (x2 : Vec Ideal S1x64 .f32) (p : Fin 5000) (q : Fin 64) :
    k3_pay1 (F := Ideal) x0 x1 x2 (ix2 p q) = (∑ k : Fin 32, x0 (ix2 p k) * x1 (ix2 q k)) + x2 (ix2 (0 : Fin 1) q) := by
  unfold k3_pay1
  rw [addf_apply]
  refine congrArg₂ (· + ·) ?_ ?_
  · refine (matmul_lin_apply _ _ p q).trans ?_
    refine Finset.sum_congr rfl fun k _ => ?_
    rw [shapeCast_self]
    refine congrArg₂ (· * ·) ?_ ?_
    · rfl
    · exact transpose_ix2_apply _ _ k q
  · rw [shapeCast_self]
    exact broadcastTo_1b_ab_apply _ _ p q

/-! ## From the blocks to the array -/

theorem off_zero : (![0, 0] : Fin 2 → Nat) = fun _ => 0 := funext fun a => by fin_cases a <;> rfl

/-- The index maps over the grid: the feature block and the output block of point `t` are row-block `t`, the weights
    and the bias are one block. -/
theorem idx_lin : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What point `t` writes back is row-block `t` of the whole product plus bias. -/
theorem flushed_lin (c : Dev nD) (t : Fin cfg3.N) :
    (dat3 (F := Ideal) V c).flushed 3 t = ((cfg3.win 3).blk t).view.read (Elt Ideal) (Cert.Spec.lin (V c main_v65) (V c main_arg2) (V c main_v66)) := by
  show (cfg3.win 3).cut (grid3.coords t) ((dat3 V c).after 3 t) = _
  rw [after3_3]
  unfold out3_3
  rw [View.canon_unit_zero off_zero]
  simp only [View.ld_unit_zero (S := S5000x32) off_zero, View.ld_unit_zero (S := S64x32) off_zero, View.ld_unit_zero (S := S1x64) off_zero]
  obtain ⟨e0, e1, e2, e3, e4, e5, e6, e7⟩ := idx_lin t
  funext j
  obtain ⟨p, q, rfl⟩ : ∃ (p : Fin 5000) (q : Fin 64), j = ix2 p q := ⟨j 0, j 1, eq_ix2 j⟩
  refine (pay_lin_apply _ _ _ p q).trans ?_
  have key : ∀ (h : FVec Ideal S100000x32 .f32) (W : FVec Ideal S64x32 .f32) (b2 : FVec Ideal S1x64 .f32),
      (∑ k : Fin 32, h (((cfg3.win 0).blk t).view.emb (ix2 p k)) * W (((cfg3.win 1).blk t).view.emb (ix2 q k)))
        + b2 (((cfg3.win 2).blk t).view.emb (ix2 (0 : Fin 1) q))
      = Cert.Spec.lin h W b2 (((cfg3.win 3).blk t).view.emb (ix2 p q)) := fun h W b2 => by
    unfold Cert.Spec.lin
    have h0 : ∀ k : Fin 32, ((cfg3.win 0).blk t).view.emb (ix2 p k)
        = ix2 ((((cfg3.win 3).blk t).view.emb (ix2 p q)) 0 : Fin 100000) k := fun k => by
      funext a; apply Fin.ext
      match a with
      | ⟨0, _⟩ => show win3_0.index t (0 : Fin 2) * 5000 + 1 * p.val = win3_3.index t (0 : Fin 2) * 5000 + 1 * p.val; omega
      | ⟨1, _⟩ => show win3_0.index t (1 : Fin 2) * 32 + 1 * k.val = k.val; omega
    have h1 : ∀ k : Fin 32, ((cfg3.win 1).blk t).view.emb (ix2 q k)
        = ix2 ((((cfg3.win 3).blk t).view.emb (ix2 p q)) 1 : Fin 64) k := fun k => by
      funext a; apply Fin.ext
      match a with
      | ⟨0, _⟩ => show win3_1.index t (0 : Fin 2) * 64 + 1 * q.val = win3_3.index t (1 : Fin 2) * 64 + 1 * q.val; omega
      | ⟨1, _⟩ => show win3_1.index t (1 : Fin 2) * 32 + 1 * k.val = k.val; omega
    have h2 : ((cfg3.win 2).blk t).view.emb (ix2 (0 : Fin 1) q)
        = ix2 (0 : Fin 1) ((((cfg3.win 3).blk t).view.emb (ix2 p q)) 1 : Fin 64) := by
      funext a; apply Fin.ext
      match a with
      | ⟨0, _⟩ => show win3_2.index t (0 : Fin 2) * 1 + 1 * 0 = 0; omega
      | ⟨1, _⟩ => show win3_2.index t (1 : Fin 2) * 64 + 1 * q.val = win3_3.index t (1 : Fin 2) * 64 + 1 * q.val; omega
    rw [h2]
    exact congrArg (· + _) (Finset.sum_congr rfl fun k _ => congrArg₂ (· * ·) (congrArg h (h0 k)) (congrArg W (h1 k)))
  exact key (V c main_v65) (V c main_arg2) (V c main_v66)

/-- An index of the array lies in point `t`'s block iff each coordinate lies in the block's range on its axis. -/
theorem mem_blk_lin (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v67).slice (win3_3.rect t)).set ↔ _
  rw [View.set_slice_whole, Rect.mem_set_unit]
  exact Iff.rfl

/-- Every index of the array lies in the block of the point numbered by its row divided by 5000. -/
theorem cover_lin (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 5000 < grid3.N := Nat.lt_of_lt_of_eq (by omega) N_3.symm
  obtain ⟨e0, e1, e2, e3, e4, e5, e6, e7⟩ := idx_lin ⟨(i 0).val / 5000, ht⟩
  refine ⟨⟨(i 0).val / 5000, ht⟩, flush3_3 _, ?_⟩
  rw [mem_blk_lin]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    have e : win3_3.index ⟨(i 0).val / 5000, ht⟩ (0 : Fin 2) = (i 0).val / 5000 := e6
    omega
  | ⟨1, _⟩ =>
    show win3_3.index ⟨(i 0).val / 5000, ht⟩ (1 : Fin 2) * 64 ≤ (i 1).val ∧ (i 1).val < win3_3.index ⟨(i 0).val / 5000, ht⟩ (1 : Fin 2) * 64 + 64
    omega

/-- Region 3's output array after the run, on the extended reals: every row of the features against every row of
    the weights, summed over the 32 features, plus the bias row. -/
theorem final3 (c : Dev nD) :
    (dat3 (F := Ideal) V c).arrAt 3 cfg3.N = Cert.Spec.lin (V c main_v65) (V c main_arg2) (V c main_v66) :=
  (dat3 (F := Ideal) V c).arrAt_eq_of_cover 3 _ (fun t _ => flushed_lin V c t) cover_lin

end Cert.KernelIdeal.RegionValue

end
-- ==== Proof.KernelValue.lean ====
import proofs.«160632_j1623497638172_1_alg».proof.Proof.Gen.KernelIdeal.Frame
import proofs.«160632_j1623497638172_1_alg».proof.Proof.Gen.ReferenceIdeal
import proofs.«160632_j1623497638172_1_alg».proof.Proof.Spec
import proofs.«160632_j1623497638172_1_alg».proof.Proof.Region0
import proofs.«160632_j1623497638172_1_alg».proof.Proof.Region1
import proofs.«160632_j1623497638172_1_alg».proof.Proof.Region2
import proofs.«160632_j1623497638172_1_alg».proof.Proof.Region3
import Idealize.ShloMosaic.Lib.StableHlo.Run

set_option maxRecDepth 16384

noncomputable section

namespace Cert.KernelIdeal.KValue

open Cert.KernelIdeal Cert.KernelIdeal.Gen
open Cert.KernelIdeal.RegionValue
open Idealize.ShloMosaic Idealize.ShloMosaic.TcCoe Idealize.SL.Sem Idealize.ShloMosaic.StableHlo
open Cert.Spec

variable {F : FTy → Type} [FloatOps F]
variable (m : (ℓ : Loc nD τ sig) → Buf (Elt F) ℓ) (ρ : Dev nD → PrngReg)

/-- The four argument arrays as launched, on core `c`. -/
abbrev xA (c : Dev nD) := m ((c.tc : Thread nD τ).loc main_arg0)
abbrev eiA (c : Dev nD) := m ((c.tc : Thread nD τ).loc main_arg1)
abbrev wA (c : Dev nD) := m ((c.tc : Thread nD τ).loc main_arg2)
abbrev bA (c : Dev nD) := m ((c.tc : Thread nD τ).loc main_arg3)

/-! ## Before the first region: the index vectors, the edge weights, the first gathered rows -/

theorem W3_v3 (c : Dev nD) : W3 m ρ c (Proc.devRef .tc main_v3) = srcV (eiA m c) := by
  show StableHlo.after hostOps0_2 (StableHlo.after hostOps0_1 (StableHlo.after hostOps0 (W0 m ρ c))) (Proc.devRef .tc main_v3) = _
  simp only [hostOps0, hostOps0_1, hostOps0_2]
  after_results_simp
  rfl

theorem W3_v6 (c : Dev nD) : W3 m ρ c (Proc.devRef .tc main_v6) = dstV (eiA m c) := by
  show StableHlo.after hostOps0_2 (StableHlo.after hostOps0_1 (StableHlo.after hostOps0 (W0 m ρ c))) (Proc.devRef .tc main_v6) = _
  simp only [hostOps0, hostOps0_1, hostOps0_2]
  after_results_simp
  rfl

theorem W3_v29 (c : Dev nD) : W3 m ρ c (Proc.devRef .tc main_v29) = nrmV (eiA m c) := by
  show StableHlo.after hostOps0_2 (StableHlo.after hostOps0_1 (StableHlo.after hostOps0 (W0 m ρ c))) (Proc.devRef .tc main_v29) = _
  simp only [hostOps0, hostOps0_1, hostOps0_2]
  after_results_simp
  rfl

theorem W3_v36 (c : Dev nD) : W3 m ρ c (Proc.devRef .tc main_v36) = gatherRows (eiA m c) (xA m c) := by
  show StableHlo.after hostOps0_2 (StableHlo.after hostOps0_1 (StableHlo.after hostOps0 (W0 m ρ c))) (Proc.devRef .tc main_v36) = _
  simp only [hostOps0, hostOps0_1, hostOps0_2]
  after_results_simp
  rfl

theorem W3_v37 (c : Dev nD) : W3 m ρ c (Proc.devRef .tc main_v37) = nrmCol (eiA m c) := by
  show StableHlo.after hostOps0_2 (StableHlo.after hostOps0_1 (StableHlo.after hostOps0 (W0 m ρ c))) (Proc.devRef .tc main_v37) = _
  simp only [hostOps0, hostOps0_1, hostOps0_2]
  after_results_simp
  rfl

/-! ## The first region: the weighted rows, whole -/

theorem W4_v38 (c : Dev nD) : W4 m ρ c (Proc.devRef .tc main_v38) = wmul (nrmCol (eiA m c)) (gatherRows (eiA m c) (xA m c)) :=
  (W4_arr m ρ c 2).trans ((final0 (V3 m ρ) c).trans (congrArg₂ wmul (W3_v37 m ρ c) (W3_v36 m ρ c)))

theorem W4_v3 (c : Dev nD) : W4 m ρ c (Proc.devRef .tc main_v3) = srcV (eiA m c) :=
  (W4_of_ne m ρ c main_v3 (by decide)).trans (W3_v3 m ρ c)

theorem W4_v6 (c : Dev nD) : W4 m ρ c (Proc.devRef .tc main_v6) = dstV (eiA m c) :=
  (W4_of_ne m ρ c main_v6 (by decide)).trans (W3_v6 m ρ c)

theorem W4_v29 (c : Dev nD) : W4 m ρ c (Proc.devRef .tc main_v29) = nrmV (eiA m c) :=
  (W4_of_ne m ρ c main_v29 (by decide)).trans (W3_v29 m ρ c)

/-! ## Between the regions: the scatter-add at the targets, the next gather, the weight column again -/

theorem W5_v3 (c : Dev nD) : W5 m ρ c (Proc.devRef .tc main_v3) = srcV (eiA m c) := by
  show StableHlo.after hostOps1 (W4 m ρ c) (Proc.devRef .tc main_v3) = _
  simp only [hostOps1]
  after_results_simp
  exact W4_v3 m ρ c

theorem W5_v6 (c : Dev nD) : W5 m ρ c (Proc.devRef .tc main_v6) = dstV (eiA m c) := by
  show StableHlo.after hostOps1 (W4 m ρ c) (Proc.devRef .tc main_v6) = _
  simp only [hostOps1]
  after_results_simp
  exact W4_v6 m ρ c

theorem W5_v29 (c : Dev nD) : W5 m ρ c (Proc.devRef .tc main_v29) = nrmV (eiA m c) := by
  show StableHlo.after hostOps1 (W4 m ρ c) (Proc.devRef .tc main_v29) = _
  simp only [hostOps1]
  after_results_simp
  exact W4_v29 m ρ c

theorem W5_v48 (c : Dev nD) : W5 m ρ c (Proc.devRef .tc main_v48) = gatherRows (eiA m c) (hopK (eiA m c) (xA m c)) := by
  show StableHlo.after hostOps1 (W4 m ρ c) (Proc.devRef .tc main_v48) = _
  simp only [hostOps1]
  after_results_simp
  rw [W4_v38 m ρ c, W4_v6 m ρ c, W4_v3 m ρ c]
  rfl

theorem W5_v49 (c : Dev nD) : W5 m ρ c (Proc.devRef .tc main_v49) = nrmCol (eiA m c) := by
  show StableHlo.after hostOps1 (W4 m ρ c) (Proc.devRef .tc main_v49) = _
  simp only [hostOps1]
  after_results_simp
  rw [W4_v29 m ρ c]
  rfl

/-! ## The second region -/

theorem W6_v50 (c : Dev nD) : W6 m ρ c (Proc.devRef .tc main_v50) = wmul (nrmCol (eiA m c)) (gatherRows (eiA m c) (hopK (eiA m c) (xA m c))) :=
  (W6_arr m ρ c 2).trans ((final1 (V5 m ρ) c).trans (congrArg₂ wmul (W5_v49 m ρ c) (W5_v48 m ρ c)))

theorem W6_v3 (c : Dev nD) : W6 m ρ c (Proc.devRef .tc main_v3) = srcV (eiA m c) :=
  (W6_of_ne m ρ c main_v3 (by decide)).trans (W5_v3 m ρ c)

theorem W6_v6 (c : Dev nD) : W6 m ρ c (Proc.devRef .tc main_v6) = dstV (eiA m c) :=
  (W6_of_ne m ρ c main_v6 (by decide)).trans (W5_v6 m ρ c)

theorem W6_v29 (c : Dev nD) : W6 m ρ c (Proc.devRef .tc main_v29) = nrmV (eiA m c) :=
  (W6_of_ne m ρ c main_v29 (by decide)).trans (W5_v29 m ρ c)

theorem W7_v3 (c : Dev nD) : W7 m ρ c (Proc.devRef .tc main_v3) = srcV (eiA m c) := by
  show StableHlo.after hostOps2 (W6 m ρ c) (Proc.devRef .tc main_v3) = _
  simp only [hostOps2]
  after_results_simp
  exact W6_v3 m ρ c

theorem W7_v6 (c : Dev nD) : W7 m ρ c (Proc.devRef .tc main_v6) = dstV (eiA m c) := by
  show StableHlo.after hostOps2 (W6 m ρ c) (Proc.devRef .tc main_v6) = _
  simp only [hostOps2]
  after_results_simp
  exact W6_v6 m ρ c

theorem W7_v29 (c : Dev nD) : W7 m ρ c (Proc.devRef .tc main_v29) = nrmV (eiA m c) := by
  show StableHlo.after hostOps2 (W6 m ρ c) (Proc.devRef .tc main_v29) = _
  simp only [hostOps2]
  after_results_simp
  exact W6_v29 m ρ c

theorem W7_v60 (c : Dev nD) : W7 m ρ c (Proc.devRef .tc main_v60) = gatherRows (eiA m c) (hopK (eiA m c) (hopK (eiA m c) (xA m c))) := by
  show StableHlo.after hostOps2 (W6 m ρ c) (Proc.devRef .tc main_v60) = _
  simp only [hostOps2]
  after_results_simp
  rw [W6_v50 m ρ c, W6_v6 m ρ c, W6_v3 m ρ c]
  rfl

theorem W7_v61 (c : Dev nD) : W7 m ρ c (Proc.devRef .tc main_v61) = nrmCol (eiA m c) := by
  show StableHlo.after hostOps2 (W6 m ρ c) (Proc.devRef .tc main_v61) = _
  simp only [hostOps2]
  after_results_simp
  rw [W6_v29 m ρ c]
  rfl

/-! ## The third region -/

theorem W8_v62 (c : Dev nD) : W8 m ρ c (Proc.devRef .tc main_v62) = wmul (nrmCol (eiA m c)) (gatherRows (eiA m c) (hopK (eiA m c) (hopK (eiA m c) (xA m c)))) :=
  (W8_arr m ρ c 2).trans ((final2 (V7 m ρ) c).trans (congrArg₂ wmul (W7_v61 m ρ c) (W7_v60 m ρ c)))

theorem W8_v3 (c : Dev nD) : W8 m ρ c (Proc.devRef .tc main_v3) = srcV (eiA m c) :=
  (W8_of_ne m ρ c main_v3 (by decide)).trans (W7_v3 m ρ c)

theorem W8_v6 (c : Dev nD) : W8 m ρ c (Proc.devRef .tc main_v6) = dstV (eiA m c) :=
  (W8_of_ne m ρ c main_v6 (by decide)).trans (W7_v6 m ρ c)

theorem W8_v29 (c : Dev nD) : W8 m ρ c (Proc.devRef .tc main_v29) = nrmV (eiA m c) :=
  (W8_of_ne m ρ c main_v29 (by decide)).trans (W7_v29 m ρ c)

/-! ## Before the last region: the third scatter-add, the bias as a row, the weights as launched -/

theorem W9_v65 (c : Dev nD) : W9 m ρ c (Proc.devRef .tc main_v65) = hopK (eiA m c) (hopK (eiA m c) (hopK (eiA m c) (xA m c))) := by
  show StableHlo.after hostOps3 (W8 m ρ c) (Proc.devRef .tc main_v65) = _
  simp only [hostOps3]
  after_results_simp
  rw [W8_v62 m ρ c, W8_v6 m ρ c]
  rfl

/-- No host operation and no region writes an argument: at every boundary it holds what was launched. -/
theorem W9_arg3 (c : Dev nD) : W9 m ρ c (Proc.devRef .tc main_arg3) = bA m c :=
  (W10_of_ne m ρ c main_arg3 (by decide)).symm.trans (W10_main_arg3 m ρ c)

theorem W9_arg2 (c : Dev nD) : W9 m ρ c (Proc.devRef .tc main_arg2) = wA m c :=
  ((W10_arr m ρ c 1).trans (((dat3 (V9 m ρ) c).arrAt_in 1 rfl _).trans (A_eq3 (V9 m ρ) c 1))).symm.trans (W10_main_arg2 m ρ c)

theorem W8_arg3 (c : Dev nD) : W8 m ρ c (Proc.devRef .tc main_arg3) = bA m c := by
  have h : W9 m ρ c (Proc.devRef .tc main_arg3) = W8 m ρ c (Proc.devRef .tc main_arg3) := by
    show StableHlo.after hostOps3 (W8 m ρ c) (Proc.devRef .tc main_arg3) = _
    simp only [hostOps3]
    after_results_simp
  exact h.symm.trans (W9_arg3 m ρ c)

theorem W9_v66 (c : Dev nD) : W9 m ρ c (Proc.devRef .tc main_v66) = biasRow (bA m c) := by
  show StableHlo.after hostOps3 (W8 m ρ c) (Proc.devRef .tc main_v66) = _
  simp only [hostOps3]
  after_results_simp
  rw [W8_arg3 m ρ c]
  rfl

end Cert.KernelIdeal.KValue

namespace Cert.KernelIdeal.KValue

open Cert.KernelIdeal Cert.KernelIdeal.Gen
open Cert.KernelIdeal.RegionValue
open Idealize.ShloMosaic Idealize.ShloMosaic.TcCoe Idealize.SL.Sem Idealize.ShloMosaic.StableHlo
open Cert.Spec

variable (m : (ℓ : Loc nD τ sig) → Buf (Elt Ideal) ℓ) (ρ : Dev nD → PrngReg)

/-! ## The last region, on the extended reals: the result array is the kernel's function of the four arguments -/

theorem W10_v67 (c : Dev nD) : W10 m ρ c (Proc.devRef .tc main_v67) = kerG (xA m c) (eiA m c) (wA m c) (bA m c) :=
  (W10_arr m ρ c 3).trans ((final3 (V9 m ρ) c).trans
    (by rw [show V9 m ρ c main_v65 = _ from W9_v65 m ρ c, show V9 m ρ c main_arg2 = _ from W9_arg2 m ρ c,
          show V9 m ρ c main_v66 = _ from W9_v66 m ρ c]; rfl))

end Cert.KernelIdeal.KValue

end
-- ==== Proof.RefValue.lean ====
import proofs.«160632_j1623497638172_1_alg».proof.Proof.RefRun
import proofs.«160632_j1623497638172_1_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
/-- The reference's result, its operations composed, is the named function of the four arguments: the degree, the
    edge weights and the two index columns each occur once per use, and the three propagation steps nest. -/
theorem res_eq_refG (m : (ℓ : Loc nD τ sig) → Buf (Elt F) ℓ) (c : Dev nD) :
    Cert.ReferenceIdeal.RunP.res_main_v73 m c
      = Cert.Spec.refG (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.RunP.res_main_v73 Cert.Spec.refG Cert.Spec.hopR Cert.Spec.scatterRows Cert.Spec.gatherRows
    Cert.Spec.nrmV Cert.Spec.dinvV Cert.Spec.degV Cert.Spec.dstIdx Cert.Spec.srcIdx Cert.Spec.wrapIdx Cert.Spec.dstV Cert.Spec.srcV
  rfl

end Cert.ReferenceIdeal.RefValue

end
-- ==== Proof.Bridge.lean ====
import proofs.«160632_j1623497638172_1_alg».proof.Proof.Spec
import proofs.«160632_j1623497638172_1_alg».proof.Proof.Gen.KernelIdeal
import proofs.«160632_j1623497638172_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Spec

open Idealize.ShloMosaic Idealize.ShloMosaic.ValueIdx Cert.ReferenceIdeal Cert.ReferenceIdeal.Facts₀

/-! ## The weight column -/

/-- The weights reshaped to a column read, at row `p`, the weight of edge `p`. -/
theorem shapeCast_col_apply (n : FVec Ideal S1700000 .f32) (p : Fin 1700000) :
    shapeCast S1700000x1 n Cert.KernelIdeal.Facts₀.shapeCasts_S1700000_S1700000x1 (ix2 p (0 : Fin 1)) = n (ix1 p) :=
  shapeCast_apply n Cert.KernelIdeal.Facts₀.shapeCasts_S1700000_S1700000x1 (ix2 p (0 : Fin 1)) (ix1 p) (by
    rw [Shape.rowMajor_val_one, Shape.rowMajor_val_two]
    show p.val = p.val * 1 + 0
    omega)

/-- The weights broadcast to a column and then along the features read, at `(p, q)`, the weight of edge `p`. -/
theorem bcast_col_apply (n : FVec Ideal S1700000 .f32) (p : Fin 1700000) (q : Fin 32) :
    broadcastInDim S1700000x32 ![0, 1] bcast_S1700000x1_S1700000x32_0_1 (broadcastInDim S1700000x1 ![0] bcast_S1700000_S1700000x1_0 n) (ix2 p q)
      = n (ix1 p) := by
  refine (broadcastInDim_apply _ bcast_S1700000x1_S1700000x32_0_1 _ (ix2 p q) (ix2 p (0 : Fin 1)) (fun a => match a with
    | ⟨0, _⟩ => by show p.val = if (1700000 : Nat) = 1 then 0 else p.val; rw [if_neg (by decide)]
    | ⟨1, _⟩ => by show 0 = if (1 : Nat) = 1 then 0 else q.val; rw [if_pos rfl])).trans ?_
  exact broadcastInDim_apply _ bcast_S1700000_S1700000x1_0 n (ix2 p (0 : Fin 1)) (ix1 p) (fun a => match a with
    | ⟨0, _⟩ => by show p.val = if (1700000 : Nat) = 1 then 0 else p.val; rw [if_neg (by decide)])

/-- The weight column times the rows is the weights broadcast along the features times the rows. -/
theorem wmul_nrmCol (n : FVec Ideal S1700000 .f32) (hs : FVec Ideal S1700000x32 .f32) :
    wmul (F := Ideal) (shapeCast _ n Cert.KernelIdeal.Facts₀.shapeCasts_S1700000_S1700000x1) hs
      = mulf (broadcastInDim S1700000x32 ![0, 1] bcast_S1700000x1_S1700000x32_0_1 (broadcastInDim S1700000x1 ![0] bcast_S1700000_S1700000x1_0 n)) hs := by
  funext i
  obtain ⟨p, q, rfl⟩ : ∃ (p : Fin 1700000) (q : Fin 32), i = ix2 p q := ⟨i 0, i 1, eq_ix2 i⟩
  rw [mulf_apply, bcast_col_apply]
  unfold wmul
  show FloatOps.mulf (shapeCast S1700000x1 n Cert.KernelIdeal.Facts₀.shapeCasts_S1700000_S1700000x1 (ix2 p (0 : Fin 1))) (hs (ix2 p q)) = _
  rw [shapeCast_col_apply]
  rfl

/-- One propagation step: the kernel's and the reference's are one function. -/
theorem hopK_eq_hopR (ei : (⟨S2x1600000, .i32⟩ : BufTy).Contents (Elt Ideal)) (h : FVec Ideal S100000x32 .f32) :
    hopK (F := Ideal) ei h = hopR (F := Ideal) ei h := by
  unfold hopK hopR nrmCol
  rw [wmul_nrmCol]

/-! ## The last layer -/

/-- The left operand's row coordinate is the result's row. -/
theorem lhs_dot_0 (i : S100000x64.Idx) (q : dot_S100000x32_S32x64_S100000x64_1_0_0_1_n_n.contr.Idx) :
    (dot_S100000x32_S32x64_S100000x64_1_0_0_1_n_n.lhsIdx i q 0).val = (i 0).val := by
  unfold DotDims.lhsIdx
  rw [dif_neg (show ¬(0 : Fin S100000x32.rank) ∈ dot_S100000x32_S32x64_S100000x64_1_0_0_1_n_n.lhsBatch by decide), dif_pos (show (0 : Fin S100000x32.rank) ∈ dot_S100000x32_S32x64_S100000x64_1_0_0_1_n_n.lhsNonContracting by decide)]
  rfl
/-- The left operand's column coordinate is the contracted one. -/
theorem lhs_dot_1 (i : S100000x64.Idx) (q : dot_S100000x32_S32x64_S100000x64_1_0_0_1_n_n.contr.Idx) :
    (dot_S100000x32_S32x64_S100000x64_1_0_0_1_n_n.lhsIdx i q 1).val = (q ⟨0, by decide⟩).val :=
  dot_S100000x32_S32x64_S100000x64_1_0_0_1_n_n.lhsIdx_val_of_single rfl i q
/-- The right operand's row coordinate is the contracted one. -/
theorem rhs_dot_0 (i : S100000x64.Idx) (q : dot_S100000x32_S32x64_S100000x64_1_0_0_1_n_n.contr.Idx) :
    (dot_S100000x32_S32x64_S100000x64_1_0_0_1_n_n.rhsIdx i q 0).val = (q ⟨0, by decide⟩).val :=
  dot_S100000x32_S32x64_S100000x64_1_0_0_1_n_n.rhsIdx_val_of_single rfl i q
/-- The right operand's column coordinate is the result's column. -/
theorem rhs_dot_1 (i : S100000x64.Idx) (q : dot_S100000x32_S32x64_S100000x64_1_0_0_1_n_n.contr.Idx) :
    (dot_S100000x32_S32x64_S100000x64_1_0_0_1_n_n.rhsIdx i q 1).val = (i 1).val := by
  unfold DotDims.rhsIdx
  rw [dif_neg (show ¬(1 : Fin S32x64.rank) ∈ dot_S100000x32_S32x64_S100000x64_1_0_0_1_n_n.rhsBatch by decide), dif_pos (show (1 : Fin S32x64.rank) ∈ dot_S100000x32_S32x64_S100000x64_1_0_0_1_n_n.rhsNonContracting by decide)]
  rfl

/-- The host contraction at `(p, q)` is the sum over the 32 features. -/
theorem dot_apply (h : FVec Ideal S100000x32 .f32) (V : FVec Ideal S32x64 .f32) (p : Fin 100000) (q : Fin 64) :
    Host.dotGeneral (F := Ideal) dot_S100000x32_S32x64_S100000x64_1_0_0_1_n_n none h V (ix2 p q) = ∑ k : Fin 32, h (ix2 p k) * V (ix2 k q) := by
  simp only [Host.dotGeneral]
  rw [Ideal.dotGeneral_apply, ← Equiv.sum_comp (contrEquiv1 dot_S100000x32_S32x64_S100000x64_1_0_0_1_n_n 32 rfl rfl).symm]
  refine Finset.sum_congr rfl fun k _ => ?_
  have hk := contrEquiv1_symm_val dot_S100000x32_S32x64_S100000x64_1_0_0_1_n_n 32 rfl rfl k
  have el : dot_S100000x32_S32x64_S100000x64_1_0_0_1_n_n.lhsIdx (ix2 p q) ((contrEquiv1 dot_S100000x32_S32x64_S100000x64_1_0_0_1_n_n 32 rfl rfl).symm k) = ix2 p k := funext fun a => Fin.ext (by
    match a with
    | ⟨0, _⟩ => exact lhs_dot_0 _ _
    | ⟨1, _⟩ => exact (lhs_dot_1 _ _).trans hk)
  have er : dot_S100000x32_S32x64_S100000x64_1_0_0_1_n_n.rhsIdx (ix2 p q) ((contrEquiv1 dot_S100000x32_S32x64_S100000x64_1_0_0_1_n_n 32 rfl rfl).symm k) = ix2 k q := funext fun a => Fin.ext (by
    match a with
    | ⟨0, _⟩ => exact (rhs_dot_0 _ _).trans hk
    | ⟨1, _⟩ => exact rhs_dot_1 _ _)
  rw [el, er]

/-- The transposed weights at `(k, q)` are the weights at `(q, k)`. -/
theorem transpose_W_apply (W : FVec Ideal S64x32 .f32) (k : Fin 32) (q : Fin 64) :
    transpose S32x64 [1, 0] W transposes_S64x32_S32x64_1_0 (ix2 k q) = W (ix2 q k) :=
  transpose_apply [1, 0] W transposes_S64x32_S32x64_1_0 (ix2 k q) (ix2 q k) (fun b => match b with
    | ⟨0, _⟩ => rfl
    | ⟨1, _⟩ => rfl)

/-- The bias reshaped to a row reads, at `(0, q)`, entry `q`. -/
theorem biasRow_apply (b : FVec Ideal S64 .f32) (q : Fin 64) :
    biasRow (F := Ideal) b (ix2 (0 : Fin 1) q) = b (ix1 q) := by
  unfold biasRow
  exact shapeCast_apply b Cert.KernelIdeal.Facts₀.shapeCasts_S64_S1x64 (ix2 (0 : Fin 1) q) (ix1 q) (by
    rw [Shape.rowMajor_val_one, Shape.rowMajor_val_two]
    show q.val = 0 * 64 + q.val
    omega)

/-- The bias broadcast to a row and then along the rows reads, at `(p, q)`, entry `q`. -/
theorem bcast_bias_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  refine (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The written-out sum over the features plus the bias row is the host contraction against the transposed weights
    plus the bias broadcast along the rows. -/
theorem lin_eq (h : FVec Ideal S100000x32 .f32) (W : FVec Ideal S64x32 .f32) (b : FVec Ideal S64 .f32) :
    lin h W (biasRow (F := Ideal) b)
      = addf (Host.dotGeneral dot_S100000x32_S32x64_S100000x64_1_0_0_1_n_n none h (transpose S32x64 [1, 0] W transposes_S64x32_S32x64_1_0)) (broadcastInDim S100000x64 ![0, 1] bcast_S1x64_S100000x64_0_1 (broadcastInDim S1x64 ![1] bcast_S64_S1x64_1 b)) := by
  funext i
  obtain ⟨p, q, rfl⟩ : ∃ (p : Fin 100000) (q : Fin 64), i = ix2 p q := ⟨i 0, i 1, eq_ix2 i⟩
  rw [addf_apply, dot_apply, bcast_bias_apply]
  unfold lin
  show (∑ k : Fin 32, h (ix2 p k) * W (ix2 q k)) + biasRow (F := Ideal) b (ix2 (0 : Fin 1) q) = _
  rw [biasRow_apply]
  congr 1
  refine Finset.sum_congr rfl fun k _ => ?_
  rw [transpose_W_apply]

/-- The kernel's result is the reference's, as functions of the four arguments on the extended reals. -/
theorem kerG_eq_refG (x : FVec Ideal S100000x32 .f32) (ei : (⟨S2x1600000, .i32⟩ : BufTy).Contents (Elt Ideal))
    (W : FVec Ideal S64x32 .f32) (b : FVec Ideal S64 .f32) : kerG x ei W b = refG (F := Ideal) x ei W b := by
  unfold kerG refG
  rw [hopK_eq_hopR, hopK_eq_hopR, hopK_eq_hopR, lin_eq]

end Cert.Spec

end
-- ==== Proof.lean ====
/-
  Three propagation steps of a normalised graph convolution followed by a linear layer: the kernel against its reference,
  over the extended reals.

  Both programs build from the edge list the same source and target vectors (self loops appended), the same in-degree,
  its inverse square root where positive, and the same edge weight `dinv (src e) · dinv (dst e)`. One propagation step
  gathers the rows `h (src e)`, multiplies row `e` by its weight and adds the rows up at their targets. The reference
  multiplies on the host, the weights broadcast along the 32 features; the kernel hands the weights as a 1700000 × 1
  column to a region that walks 170 blocks of 10000 rows, and block `t` of its output is the product restricted to those
  rows, so the output array whole is the same product (`wmul`, equal to the broadcast product index by index). After
  three steps the reference contracts the 32 features against the transposed weights and adds the bias broadcast along
  the rows; the kernel's last region walks 20 blocks of 5000 rows and computes, per block, the same sum over the features
  (a matrix product into a zero accumulator; the rounding of its operands to bfloat16 is the identity on the extended
  reals) plus the bias row. No law beyond re-indexing one finite sum is used, so finiteness of the inputs is not needed.

  The kernel's run names its result array at the last segment boundary's contents; those contents are read back
  boundary by boundary (host operations composed, each region's output array by its closed form) to `kerG` of the four
  arguments; the reference's run ends at its operations' composed term, which is `refG` of the arguments; and
  `kerG = refG`. The three frames are the generated ones (the reference's: its run with the result dropped); the
  idealisation rewrote nothing, so `preserves` is trivial.
-/
import proofs.«160632_j1623497638172_1_alg».proof.Defs
import proofs.«160632_j1623497638172_1_alg».proof.Proof.Gen.Kernel
import proofs.«160632_j1623497638172_1_alg».proof.Proof.Gen.Kernel.Frame
import proofs.«160632_j1623497638172_1_alg».proof.Proof.Gen.KernelIdeal
import proofs.«160632_j1623497638172_1_alg».proof.Proof.Gen.KernelIdeal.Frame
import proofs.«160632_j1623497638172_1_alg».proof.Proof.Gen.ReferenceIdeal
import proofs.«160632_j1623497638172_1_alg».proof.Proof.Gen.Pre_finite_inputs
import proofs.«160632_j1623497638172_1_alg».proof.Proof.KernelRun
import proofs.«160632_j1623497638172_1_alg».proof.Proof.KernelValue
import proofs.«160632_j1623497638172_1_alg».proof.Proof.RefRun
import proofs.«160632_j1623497638172_1_alg».proof.Proof.RefValue
import proofs.«160632_j1623497638172_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both runs end with the result array at `kerG` of the kernel's arguments: the kernel's by reading its last boundary
    back, the reference's by its composed term `refG` at arguments that agree, and `kerG = refG`. -/
theorem algebraic : Cert.algebraic_KernelIdeal_ReferenceIdeal := by
  intro m ρ m' ρ' _ hagree
  refine ⟨fun c => Cert.Spec.kerG (Cert.KernelIdeal.KValue.xA m c) (Cert.KernelIdeal.KValue.eiA m c)
      (Cert.KernelIdeal.KValue.wA m c) (Cert.KernelIdeal.KValue.bA m c), ?_, ?_⟩
  · exact (θ_run Cert.KernelIdeal.defs _ _).mono
      (fun r h c => ⟨(h c).1.trans (Cert.KernelIdeal.KValue.W10_v67 m ρ c), (h c).2⟩)
      (Cert.KernelIdeal.NamedRun.run_named (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.RefValue.res_eq_refG, (hagree c).1, (hagree c).2.1, (hagree c).2.2.1, (hagree c).2.2.2]
    exact (Cert.Spec.kerG_eq_refG _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
